-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S_ : Shape := ⟨0, ![]⟩

class Facts : Prop where
  bcast_S_S8x16x8192 : S_.BroadcastsInDim S8x16x8192 (![] : Fin 0 → Fin S8x16x8192.rank)
  reducesTo_S8x16x8192_S_d0_1_2 : S8x16x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S16x8192 : S_.BroadcastsInDim S16x8192 (![] : Fin 0 → Fin S16x8192.rank)
  reducesTo_S16x8192_S_d0_1 : S16x8192.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  main_v23

def fn {F : FTy → Type} [FloatOps F] (main_arg0 : FVec F S8x16x8192 .f32) (main_arg1 : FVec F S8192x8192 .f32) (main_arg2 : FVec F S8192 .f32) (main_arg3 : FVec F S16x8192 .f32) (main_arg4 : FVec F S8192x16 .f32) : IVec S_ 1 :=
  let main_v0 : FVec F S8x16x8192 .f32 := Host.absf main_arg0
  let main_cst : FVec F S_ .f32 := constant S_ .f32 0x7F800000#32
  let main_v1 : FVec F S8x16x8192 .f32 := broadcastInDim S8x16x8192 ![] bcast_S_S8x16x8192 main_cst
  let main_v2 : IVec S8x16x8192 1 := cmpf .olt main_v0 main_v1
  let main_c : IVec S_ 1 := constantI S_ 1 1#1
  let main_v3 : IVec S_ 1 := (fun x v => Host.reduce IntOp.andi x v reducesTo_S8x16x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Kernel.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S128x8192 : Shape := ⟨2, ![128, 8192]⟩
abbrev S1x8192 : Shape := ⟨2, ![1, 8192]⟩
abbrev S128x1024 : Shape := ⟨2, ![128, 1024]⟩
abbrev S2048x1024 : Shape := ⟨2, ![2048, 1024]⟩
abbrev S1x2048 : Shape := ⟨2, ![1, 2048]⟩
abbrev S16x1024 : Shape := ⟨2, ![16, 1024]⟩
abbrev S2048x16 : Shape := ⟨2, ![2048, 16]⟩
abbrev S128x2048 : Shape := ⟨2, ![128, 2048]⟩
abbrev S128x16 : Shape := ⟨2, ![128, 16]⟩
abbrev S1024x2048 : Shape := ⟨2, ![1024, 2048]⟩
abbrev S1024x16 : Shape := ⟨2, ![1024, 16]⟩
abbrev S16x2048 : Shape := ⟨2, ![16, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8x16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S8192x16, .f32⟩
  | .hbm, ⟨5, _⟩ => ⟨S128x8192, .f32⟩
  | .hbm, ⟨6, _⟩ => ⟨S1x8192, .f32⟩
  | .hbm, ⟨7, _⟩ => ⟨S128x8192, .f32⟩
  | .hbm, ⟨8, _⟩ => ⟨S8x16x8192, .f32⟩
  | .local _ .vmem, ⟨0, _⟩ => ⟨S128x1024, .f32⟩
  | .local _ .vmem, ⟨1, _⟩ => ⟨S128x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S16x1024, .f32⟩
  | .local _ .vmem, ⟨7, _⟩ => ⟨S16x1024, .f32⟩
  | .local _ .vmem, ⟨8, _⟩ => ⟨S2048x16, .f32⟩
  | .local _ .vmem, ⟨9, _⟩ => ⟨S2048x16, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x16, .f32⟩
  | _, _ => ⟨S8x16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x16x8192_S128x8192 : S8x16x8192.ShapeCasts S128x8192
  shapeCasts_S8192_S1x8192 : S8192.ShapeCasts S1x8192
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S16x1024_S16x1024_0_0 : ∀ a, (![0, 0] : Fin 2 → Nat) a + S16x1024.size a ≤ S16x1024.size a
  h_S16x1024 : 0 < S16x1024.numel
  transposes_S16x1024_p1_0_S1024x16 : S16x1024.Transposes [1, 0] S1024x16
  inb_S2048x16_S2048x16_0_0 : ∀ a, (![0, 0] : Fin 2 → Nat) a + S2048x16.size a ≤ S2048x16.size a
  h_S2048x16 : 0 < S2048x16.numel
  transposes_S2048x16_p1_0_S16x2048 : S2048x16.Transposes [1, 0] S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x8192_S8x16x8192 : S128x8192.ShapeCasts S8x16x8192
  dot_S128x1024_S1024x2048_S128x2048_1_0_0_1_n_n_wf : DotDims.WF S128x1024 S1024x2048 S128x2048 [1] [0] [0] [1] [] []
  dot_S128x1024_S1024x16_S128x16_1_0_0_1_n_n_wf : DotDims.WF S128x1024 S1024x16 S128x16 [1] [0] [0] [1] [] []
  dot_S128x16_S16x2048_S128x2048_1_0_0_1_n_n_wf : DotDims.WF S128x16 S16x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x8192.size a
  hwx0_0 : ∀ i : grid0.Coords, EltTy.bits .f32 = 32 ∨ (Rect.block (s := S128x8192) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x8192.size a
  hwx0_3 : ∀ i : grid0.Coords, EltTy.bits .f32 = 32 ∨ (Rect.block (s := S16x8192) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S8192x16.size a
  hwx0_4 : ∀ i : grid0.Coords, EltTy.bits .f32 = 32 ∨ (Rect.block (s := S8192x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x8192.size a
  hwx0_5 : ∀ i : grid0.Coords, EltTy.bits .f32 = 32 ∨ (Rect.block (s := S128x8192) S128x2048.size (cc0_transform_5 i) (hinb0_5 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x16_S128x16_1_0_0_1_n_n : DotDims S128x1024 S1024x16 S128x16 where
  lhsContracting := [1]
  rhsContracting := [0]
  lhsNonContracting := [0]
  rhsNonContracting := [1]
  lhsBatch := []
  rhsBatch := []
  wf := dot_S128x1024_S1024x16_S128x16_1_0_0_1_n_n_wf
def dot_S128x16_S16x2048_S128x2048_1_0_0_1_n_n : DotDims S128x16 S16x2048 S128x2048 where
  lhsContracting := [1]
  rhsContracting := [0]
  lhsNonContracting := [0]
  rhsNonContracting := [1]
  lhsBatch := []
  rhsBatch := []
  wf := dot_S128x16_S16x2048_S128x2048_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x16x8192 : Shape := ⟨3, ![8, 16, 8192]⟩
abbrev S8192x8192 : Shape := ⟨2, ![8192, 8192]⟩
abbrev S8192 : Shape := ⟨1, ![8192]⟩
abbrev S16x8192 : Shape := ⟨2, ![16, 8192]⟩
abbrev S8192x16 : Shape := ⟨2, ![8192, 16]⟩
abbrev S1x1x8192 : Shape := ⟨3, ![1, 1, 8192]⟩
abbrev S8x16x16 : Shape := ⟨3, ![8, 16, 16]⟩

abbrev nBuf : Space → Nat
  | .hbm => 12
  | .vmem => 0
  | .smem => 0
  | _ => 0

abbrev bufTy : (tb : Table) → Fin (tcTables nBuf tb) → BufTy
  | .hbm, ⟨0, _⟩ => ⟨S8x16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S8192x16, .f32⟩
  | .hbm, ⟨5, _⟩ => ⟨S8x16x8192, .f32⟩
  | .hbm, ⟨6, _⟩ => ⟨S1x1x8192, .f32⟩
  | .hbm, ⟨7, _⟩ => ⟨S8x16x8192, .f32⟩
  | .hbm, ⟨8, _⟩ => ⟨S8x16x8192, .f32⟩
  | .hbm, ⟨9, _⟩ => ⟨S8x16x16, .f32⟩
  | .hbm, ⟨10, _⟩ => ⟨S8x16x8192, .f32⟩
  | .hbm, ⟨11, _⟩ => ⟨S8x16x8192, .f32⟩
  | _, _ => ⟨S8x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S8x16x8192_0_1_2 : S1x1x8192.BroadcastsInDim S8x16x8192 (![0, 1, 2] : Fin 3 → Fin S8x16x8192.rank)
  dot_S8x16x8192_S8192x8192_S8x16x8192_2_1_01_0_n_n_wf : DotDims.WF S8x16x8192 S8192x8192 S8x16x8192 [2] [1] [0, 1] [0] [] []
  dot_S8x16x8192_S16x8192_S8x16x16_2_1_01_0_n_n_wf : DotDims.WF S8x16x8192 S16x8192 S8x16x16 [2] [1] [0, 1] [0] [] []
  dot_S8x16x16_S8192x16_S8x16x8192_2_1_01_0_n_n_wf : DotDims.WF S8x16x16 S8192x16 S8x16x8192 [2] [1] [0, 1] [0] [] []

variable [Facts₀]

def dot_S8x16x8192_S8192x8192_S8x16x8192_2_1_01_0_n_n : DotDims S8x16x8192 S8192x8192 S8x16x8192 where
  lhsContracting := [2]
  rhsContracting := [1]
  lhsNonContracting := [0, 1]
  rhsNonContracting := [0]
  lhsBatch := []
  rhsBatch := []
  wf := dot_S8x16x8192_S8192x8192_S8x16x8192_2_1_01_0_n_n_wf
def dot_S8x16x8192_S16x8192_S8x16x16_2_1_01_0_n_n : DotDims S8x16x8192 S16x8192 S8x16x16 where
  lhsContracting := [2]
  rhsContracting := [1]
  lhsNonContracting := [0, 1]
  rhsNonContracting := [0]
  lhsBatch := []
  rhsBatch := []
  wf := dot_S8x16x8192_S16x8192_S8x16x16_2_1_01_0_n_n_wf
def dot_S8x16x16_S8192x16_S8x16x8192_2_1_01_0_n_n : DotDims S8x16x16 S8192x16 S8x16x8192 where
  lhsContracting := [2]
  rhsContracting := [1]
  lhsNonContracting := [0, 1]
  rhsNonContracting := [0]
  lhsBatch := []
  rhsBatch := []
  wf := dot_S8x16x16_S8192x16_S8x16x8192_2_1_01_0_n_n_wf

class Facts : Prop extends Facts₀ where

variable [Facts]
-- ==== Proof.LoraSpec.lean ====
/-
  The function that both programs compute, and the regrouping of a finite sum that joins them.

  With x : [8, 16, 8192], W : [8192, 8192], b : [8192], A : [16, 8192], B : [8192, 16] over the extended reals,
  the result at (s, t, o) is

      ( Σ_d x[s,t,d] · W[o,d]  +  Σ_r ( Σ_d x[s,t,d] · A[r,d] ) · B[o,r] )  +  b[o].

  The kernel reaches the two inner sums over d in eight consecutive stretches of 1024 terms, each added to a
  running total that starts at zero; the reference takes each as one sum and adds the bias before the low-rank
  term.  Only commutativity and associativity of + on the extended reals are used: no term is ever cancelled,
  distributed or moved across a product, so no finiteness of the inputs is needed.
-/
import Idealize.ShloMosaic.PureOps.Ideal
import Idealize.ShloMosaic.Lib.ValueIdx
import Idealize.ShloMosaic.Lib.Pipeline.Value

noncomputable section

namespace Cert.LoraLinear

open Idealize.ShloMosaic Idealize.ShloMosaic.ValueIdx

/-- A matrix read at natural-number coordinates: its entry inside, zero outside.  Sums over stretches of a row
    are then sums over ranges of naturals, and arithmetic on the coordinates is plain arithmetic. -/
def at2 {n0 n1 : Nat} (X : (⟨2, ![n0, n1]⟩ : Shape).Idx → EReal) (a b : ℕ) : EReal :=
  if h : a < n0 ∧ b < n1 then X (ix2 ⟨a, h.1⟩ ⟨b, h.2⟩) else 0

theorem at2_of_lt {n0 n1 : Nat} (X : (⟨2, ![n0, n1]⟩ : Shape).Idx → EReal) {a b : ℕ} (ha : a < n0) (hb : b < n1) :
    at2 X a b = X (ix2 ⟨a, ha⟩ ⟨b, hb⟩) := dif_pos ⟨ha, hb⟩

theorem at2_fin {n0 n1 : Nat} (X : (⟨2, ![n0, n1]⟩ : Shape).Idx → EReal) (a : Fin n0) (b : Fin n1) :
    at2 X a.val b.val = X (ix2 a b) := at2_of_lt X a.isLt b.isLt

/-- A sum over the first (k + 1) stretches of length n is the sum over the first k stretches plus stretch k. -/
theorem sum_stretch {M : Type*} [AddCommMonoid M] (f : ℕ → M) (n k : ℕ) :
    ∑ d ∈ Finset.range (n * (k + 1)), f d = ∑ d ∈ Finset.range (n * k), f d + ∑ q : Fin n, f (n * k + q.val) := by
  rw [Nat.mul_succ, Finset.sum_range_add, Fin.sum_univ_eq_sum_range (fun q => f (n * k + q)) n]

/-- The first stretch alone. -/
theorem sum_first_stretch {M : Type*} [AddCommMonoid M] (f : ℕ → M) (n : ℕ) :
    ∑ d ∈ Finset.range (n * (0 + 1)), f d = ∑ q : Fin n, f (n * 0 + q.val) := by
  rw [sum_stretch, Nat.mul_zero, Finset.range_zero, Finset.sum_empty, zero_add]

/-- All the stretches together: the inner product of row a of X with row b of Y. -/
theorem sum_all {n0 n1 n2 : Nat} (X : (⟨2, ![n0, n2]⟩ : Shape).Idx → EReal) (Y : (⟨2, ![n1, n2]⟩ : Shape).Idx → EReal)
    (a : Fin n0) (b : Fin n1) :
    ∑ d ∈ Finset.range n2, at2 X a.val d * at2 Y b.val d = ∑ d : Fin n2, X (ix2 a d) * Y (ix2 b d) := by
  rw [← Fin.sum_univ_eq_sum_range (fun d => at2 X a.val d * at2 Y b.val d) n2]
  exact Finset.sum_congr rfl fun d _ => by rw [at2_fin, at2_fin]

/-- The value over the flattened rows p = 16 s + t, as the kernel produces it: X : [128, 8192] the rows of x,
    β : [1, 8192] the bias as a row. -/
def flat (X : (⟨2, ![128, 8192]⟩ : Shape).Idx → EReal) (W : (⟨2, ![8192, 8192]⟩ : Shape).Idx → EReal)
    (β : (⟨2, ![1, 8192]⟩ : Shape).Idx → EReal) (A : (⟨2, ![16, 8192]⟩ : Shape).Idx → EReal)
    (B : (⟨2, ![8192, 16]⟩ : Shape).Idx → EReal) : (⟨2, ![128, 8192]⟩ : Shape).Idx → EReal :=
  fun i => ((∑ d : Fin 8192, X (ix2 (i 0) d) * W (ix2 (i 1) d))
      + ∑ r : Fin 16, (∑ d : Fin 8192, X (ix2 (i 0) d) * A (ix2 r d)) * B (ix2 (i 1) r))
    + β (ix2 0 (i 1))

/-- The value itself, over (s, t, o). -/
def value (x : (⟨3, ![8, 16, 8192]⟩ : Shape).Idx → EReal) (W : (⟨2, ![8192, 8192]⟩ : Shape).Idx → EReal)
    (b : (⟨1, ![8192]⟩ : Shape).Idx → EReal) (A : (⟨2, ![16, 8192]⟩ : Shape).Idx → EReal)
    (B : (⟨2, ![8192, 16]⟩ : Shape).Idx → EReal) : (⟨3, ![8, 16, 8192]⟩ : Shape).Idx → EReal :=
  fun i => ((∑ d : Fin 8192, x (ix3 (i 0) (i 1) d) * W (ix2 (i 2) d))
      + ∑ r : Fin 16, (∑ d : Fin 8192, x (ix3 (i 0) (i 1) d) * A (ix2 r d)) * B (ix2 (i 2) r))
    + b (ix1 (i 2))

/-! ## The flattening of the rows and its inverse

  Row p = 16 s + t of the flattened x is row (s, t) of x, the bias as a one-row matrix is the bias, and the
  result over (s, t, o) is the flattened result at (16 s + t, o): all three are reshapes, which keep the
  row-major position. -/

/-- Row 16 s + t of the flattened x. -/
theorem rows_apply (x : (⟨3, ![8, 16, 8192]⟩ : Shape).Idx → EReal)
    (h : (⟨3, ![8, 16, 8192]⟩ : Shape).ShapeCasts ⟨2, ![128, 8192]⟩) (s : Fin 8) (t : Fin 16) (p : Fin 128)
    (hp : p.val = 16 * s.val + t.val) (d : Fin 8192) :
    shapeCast (⟨2, ![128, 8192]⟩ : Shape) x h (ix2 p d) = x (ix3 s t d) :=
  shapeCast_apply x h (ix2 p d) (ix3 s t d) (by
    rw [Shape.rowMajor_val_two, Shape.rowMajor_val_three]
    show (s.val * 16 + t.val) * 8192 + d.val = p.val * 8192 + d.val
    rw [hp]; ring)

/-- The bias as a one-row matrix. -/
theorem biasrow_apply (b : (⟨1, ![8192]⟩ : Shape).Idx → EReal)
    (h : (⟨1, ![8192]⟩ : Shape).ShapeCasts ⟨2, ![1, 8192]⟩) (o : Fin 8192) :
    shapeCast (⟨2, ![1, 8192]⟩ : Shape) b h (ix2 0 o) = b (ix1 o) :=
  shapeCast_apply b h (ix2 0 o) (ix1 o) (by
    rw [Shape.rowMajor_val_two, Shape.rowMajor_val_one]
    show o.val = 0 * 8192 + o.val
    omega)

/-- The flattened value of the flattened arguments, unflattened, is the value. -/
theorem unflatten_flat (x : (⟨3, ![8, 16, 8192]⟩ : Shape).Idx → EReal) (W : (⟨2, ![8192, 8192]⟩ : Shape).Idx → EReal)
    (b : (⟨1, ![8192]⟩ : Shape).Idx → EReal) (A : (⟨2, ![16, 8192]⟩ : Shape).Idx → EReal)
    (B : (⟨2, ![8192, 16]⟩ : Shape).Idx → EReal)
    (h1 : (⟨3, ![8, 16, 8192]⟩ : Shape).ShapeCasts ⟨2, ![128, 8192]⟩)
    (h2 : (⟨1, ![8192]⟩ : Shape).ShapeCasts ⟨2, ![1, 8192]⟩)
    (h3 : (⟨2, ![128, 8192]⟩ : Shape).ShapeCasts ⟨3, ![8, 16, 8192]⟩) :
    shapeCast (⟨3, ![8, 16, 8192]⟩ : Shape)
        (flat (shapeCast (⟨2, ![128, 8192]⟩ : Shape) x h1) W (shapeCast (⟨2, ![1, 8192]⟩ : Shape) b h2) A B) h3
      = value x W b A B := by
  funext i
  obtain ⟨s, t, o, rfl⟩ : ∃ (s : Fin 8) (t : Fin 16) (o : Fin 8192), i = ix3 s t o := ⟨i 0, i 1, i 2, eq_ix3 i⟩
  have hp : 16 * s.val + t.val < 128 := by have := s.isLt; have := t.isLt; omega
  refine (shapeCast_apply _ h3 (ix3 s t o) (ix2 ⟨16 * s.val + t.val, hp⟩ o) (by
    rw [Shape.rowMajor_val_two, Shape.rowMajor_val_three]
    show (16 * s.val + t.val) * 8192 + o.val = (s.val * 16 + t.val) * 8192 + o.val
    ring)).trans ?_
  show ((∑ d : Fin 8192, shapeCast (⟨2, ![128, 8192]⟩ : Shape) x h1 (ix2 ⟨16 * s.val + t.val, hp⟩ d) * W (ix2 o d))
      + ∑ r : Fin 16, (∑ d : Fin 8192, shapeCast (⟨2, ![128, 8192]⟩ : Shape) x h1 (ix2 ⟨16 * s.val + t.val, hp⟩ d) * A (ix2 r d)) * B (ix2 o r))
    + shapeCast (⟨2, ![1, 8192]⟩ : Shape) b h2 (ix2 0 o)
    = ((∑ d : Fin 8192, x (ix3 s t d) * W (ix2 o d)) + ∑ r : Fin 16, (∑ d : Fin 8192, x (ix3 s t d) * A (ix2 r d)) * B (ix2 o r)) + b (ix1 o)
  simp only [rows_apply x h1 s t ⟨16 * s.val + t.val, hp⟩ rfl, biasrow_apply b h2 o]

end Cert.LoraLinear

end
-- ==== Proof.LoraPieces.lean ====
/-
  What each case of the kernel body leaves behind, as values.

  The body runs in one of three ways, by the position k of the point along the contraction axis of the grid:
    first (k = 0)   : both running totals are reset to zero, then each gets the point's stretch added;
    middle          : each running total gets the point's stretch added to what the point before left;
    last (k = 7)    : as in the middle, and then the output block is formed from the two fresh totals.
  Each store covers its whole buffer, and every load reads a whole buffer, so what a buffer ends holding is the
  stored value of its last store, with the loads that value was computed from read back: a load of a running
  total that follows the reset in the same point reads the reset's zero, and the loads of the totals that the
  output is formed from read the totals just stored.
-/
import proofs.«100584_j72980084293847_1_alg».proof.Proof.Gen.KernelIdeal.Frame
import Idealize.ShloMosaic.Lib.Pipeline.Value
import Idealize.ShloMosaic.Lib.Tactic

noncomputable section

namespace Cert.KernelIdeal.LoraValue

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a2 : Memref sig .tc .vmem S128x1024 .f32) (h2 : a2.IsWhole) (a3 : Memref sig .tc .vmem S2048x1024 .f32) (h3 : a3.IsWhole) (a4 : Memref sig .tc .vmem S1x2048 .f32) (h4 : a4.IsWhole) (a5 : Memref sig .tc .vmem S16x1024 .f32) (h5 : a5.IsWhole) (a6 : Memref sig .tc .vmem S2048x16 .f32) (h6 : a6.IsWhole) (a7 : Memref sig .tc .vmem S128x2048 .f32) (h7 : a7.IsWhole) (a8 : Memref sig .tc .vmem S128x2048 .f32) (h8 : a8.IsWhole) (a9 : Memref sig .tc .vmem S128x16 .f32) (h9 : a9.IsWhole)

/-- First point of a column block: the base total is zero plus the point's stretch. -/
theorem base_first (hc0 : cond0_0 i) (hc1 : ¬cond0_1 i) (x0 : Vec F S128x1024 .f32) (x1 : Vec F S2048x1024 .f32) (x2 : Vec F S1x2048 .f32) (x3 : Vec F S16x1024 .f32) (x4 : Vec F S2048x16 .f32) :
    sout0_A_0 c i a2 h2 a3 h3 a4 h4 a5 h5 a6 h6 a7 h7 a8 h8 a9 h9 hc0 hc1 x0 x1 x2 x3 x4 = k0_pay4 x0 x1 k0_pay1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S128x2048) hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- First point: the low-rank total is zero plus the point's stretch. -/
theorem low_first (hc0 : cond0_0 i) (hc1 : ¬cond0_1 i) (x0 : Vec F S128x1024 .f32) (x1 : Vec F S2048x1024 .f32) (x2 : Vec F S1x2048 .f32) (x3 : Vec F S16x1024 .f32) (x4 : Vec F S2048x16 .f32) :
    sout0_A_1 c i a2 h2 a3 h3 a4 h4 a5 h5 a6 h6 a7 h7 a8 h8 a9 h9 hc0 hc1 x0 x1 x2 x3 x4 = k0_pay5 x0 x3 k0_pay2 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S128x16) hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- A middle point: the base total is what the point before left plus the point's stretch. -/
theorem base_middle (hc0 : ¬cond0_0 i) (hc1 : ¬cond0_1 i) (x0 : Vec F S128x1024 .f32) (x1 : Vec F S2048x1024 .f32) (x2 : Vec F S1x2048 .f32) (x3 : Vec F S16x1024 .f32) (x4 : Vec F S2048x16 .f32) (xs0 : Vec F S128x2048 .f32) (xs1 : Vec F S128x16 .f32) :
    sout0_B_0 c i a2 h2 a3 h3 a4 h4 a5 h5 a6 h6 a7 h7 a8 h8 a9 h9 hc0 hc1 x0 x1 x2 x3 x4 xs0 xs1 = k0_pay4 x0 x1 xs0 := by
  unfold sout0_B_0
  rw [View.read_writes_eq_canon _ _ _ (scover0_B_0 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- A middle point: the low-rank total likewise. -/
theorem low_middle (hc0 : ¬cond0_0 i) (hc1 : ¬cond0_1 i) (x0 : Vec F S128x1024 .f32) (x1 : Vec F S2048x1024 .f32) (x2 : Vec F S1x2048 .f32) (x3 : Vec F S16x1024 .f32) (x4 : Vec F S2048x16 .f32) (xs0 : Vec F S128x2048 .f32) (xs1 : Vec F S128x16 .f32) :
    sout0_B_1 c i a2 h2 a3 h3 a4 h4 a5 h5 a6 h6 a7 h7 a8 h8 a9 h9 hc0 hc1 x0 x1 x2 x3 x4 xs0 xs1 = k0_pay5 x0 x3 xs1 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- The last point: the base total as at a middle point. -/
theorem base_last (hc0 : ¬cond0_0 i) (hc1 : cond0_1 i) (x0 : Vec F S128x1024 .f32) (x1 : Vec F S2048x1024 .f32) (x2 : Vec F S1x2048 .f32) (x3 : Vec F S16x1024 .f32) (x4 : Vec F S2048x16 .f32) (xs0 : Vec F S128x2048 .f32) (xs1 : Vec F S128x16 .f32) :
    sout0_C_0 c i a2 h2 a3 h3 a4 h4 a5 h5 a6 h6 a7 h7 a8 h8 a9 h9 hc0 hc1 x0 x1 x2 x3 x4 xs0 xs1 = k0_pay4 x0 x1 xs0 := by
  unfold sout0_C_0
  rw [View.read_writes_eq_canon _ _ _ (scover0_C_0 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- The last point: the low-rank total as at a middle point. -/
theorem low_last (hc0 : ¬cond0_0 i) (hc1 : cond0_1 i) (x0 : Vec F S128x1024 .f32) (x1 : Vec F S2048x1024 .f32) (x2 : Vec F S1x2048 .f32) (x3 : Vec F S16x1024 .f32) (x4 : Vec F S2048x16 .f32) (xs0 : Vec F S128x2048 .f32) (xs1 : Vec F S128x16 .f32) :
    sout0_C_1 c i a2 h2 a3 h3 a4 h4 a5 h5 a6 h6 a7 h7 a8 h8 a9 h9 hc0 hc1 x0 x1 x2 x3 x4 xs0 xs1 = k0_pay5 x0 x3 xs1 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

/-- The last point: the output block, formed from the two totals the point has just stored. -/
theorem out_last (hc0 : ¬cond0_0 i) (hc1 : cond0_1 i) (x0 : Vec F S128x1024 .f32) (x1 : Vec F S2048x1024 .f32) (x2 : Vec F S1x2048 .f32) (x3 : Vec F S16x1024 .f32) (x4 : Vec F S2048x16 .f32) (xs0 : Vec F S128x2048 .f32) (xs1 : Vec F S128x16 .f32) :
    out0_C_5 c i a2 h2 a3 h3 a4 h4 a5 h5 a6 h6 a7 h7 a8 h8 a9 h9 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread, View.ld_unit_zero (S := S128x1024) hz, View.ld_unit_zero (S := S2048x1024) hz, View.ld_unit_zero (S := S1x2048) hz, View.ld_unit_zero (S := S16x1024) hz, View.ld_unit_zero (S := S2048x16) hz, View.ld_unit_zero (S := S128x2048) hz, View.ld_unit_zero (S := S128x16) hz, View.readCov_unit_zero (S := S128x2048) _ hz, View.readCov_unit_zero (S := S128x16) _ hz]

end

end Cert.KernelIdeal.LoraValue

end
-- ==== Proof.LoraPayloads.lean ====
/-
  What the kernel body stores, read at one index, over the extended reals.

  The body has three block products, each into a zero accumulator, so each is a plain sum over its contracted axis:
    * the rows of the x block against the rows of the W block (the W block is transposed first),
    * the rows of the x block against the rows of the A block (likewise transposed),
    * the rows of the low-rank total against the rows of the B block (likewise transposed).
  The narrowing of the operands to a shorter float format is the identity on extended reals, and the casts between
  equal shapes are the identity.  So the three stored values are, at row p and column j (or rank index r):
    running base total   :  previous[p, j] + Σ_q xblk[p, q] · wblk[j, q]
    running low-rank     :  previous[p, r] + Σ_q xblk[p, q] · ablk[r, q]
    the output block     :  (base[p, j] + Σ_r low[p, r] · bblk[j, r]) + bias[0, j]
  and the two resets store zero.
-/
import proofs.«100584_j72980084293847_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LoraValue

open Cert.KernelIdeal Cert.KernelIdeal.Gen Idealize.ShloMosaic Idealize.ShloMosaic.ValueIdx

/-! ## The x block against the transposed W block: contraction over the 1024 columns -/

theorem lhs_xw_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_xw_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_xw_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_xw_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- Entry (p, j) of the product of l : [128, 1024] and r : [1024, 2048] into zero. -/
theorem prod_xw (l : FVec Ideal S128x1024 .bf16) (r : FVec Ideal S1024x2048 .bf16) (p : Fin 128) (j : Fin 2048) :
    matmul dot_S128x1024_S1024x2048_S128x2048_1_0_0_1_n_n none l r (constant (F := Ideal) S128x2048 .f32 0x00000000#32) (ix2 p j)
      = ∑ q : Fin 1024, l (ix2 p q) * r (ix2 q j) := by
  simp only [matmul]
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p j) ((contrEquiv1 dot_S128x1024_S1024x2048_S128x2048_1_0_0_1_n_n 1024 rfl rfl).symm k) = ix2 p k := funext fun a => Fin.ext (by
    match a with
    | ⟨0, _⟩ => exact lhs_xw_0 _ _
    | ⟨1, _⟩ => exact (lhs_xw_1 _ _).trans hk)
  have er : dot_S128x1024_S1024x2048_S128x2048_1_0_0_1_n_n.rhsIdx (ix2 p j) ((contrEquiv1 dot_S128x1024_S1024x2048_S128x2048_1_0_0_1_n_n 1024 rfl rfl).symm k) = ix2 k j := funext fun a => Fin.ext (by
    match a with
    | ⟨0, _⟩ => exact (rhs_xw_0 _ _).trans hk
    | ⟨1, _⟩ => exact rhs_xw_1 _ _)
  rw [el, er]

/-! ## The x block against the transposed A block: contraction over the 1024 columns -/

theorem lhs_xa_0 (i : S128x16.Idx) (q : dot_S128x1024_S1024x16_S128x16_1_0_0_1_n_n.contr.Idx) :
    (dot_S128x1024_S1024x16_S128x16_1_0_0_1_n_n.lhsIdx i q 0).val = (i 0).val := by
  unfold DotDims.lhsIdx
  rw [dif_neg (show ¬(0 : Fin S128x1024.rank) ∈ dot_S128x1024_S1024x16_S128x16_1_0_0_1_n_n.lhsBatch by decide), dif_pos (show (0 : Fin S128x1024.rank) ∈ dot_S128x1024_S1024x16_S128x16_1_0_0_1_n_n.lhsNonContracting by decide)]
  rfl
theorem lhs_xa_1 (i : S128x16.Idx) (q : dot_S128x1024_S1024x16_S128x16_1_0_0_1_n_n.contr.Idx) :
    (dot_S128x1024_S1024x16_S128x16_1_0_0_1_n_n.lhsIdx i q 1).val = (q ⟨0, by decide⟩).val :=
  dot_S128x1024_S1024x16_S128x16_1_0_0_1_n_n.lhsIdx_val_of_single rfl i q
theorem rhs_xa_0 (i : S128x16.Idx) (q : dot_S128x1024_S1024x16_S128x16_1_0_0_1_n_n.contr.Idx) :
    (dot_S128x1024_S1024x16_S128x16_1_0_0_1_n_n.rhsIdx i q 0).val = (q ⟨0, by decide⟩).val :=
  dot_S128x1024_S1024x16_S128x16_1_0_0_1_n_n.rhsIdx_val_of_single rfl i q
theorem rhs_xa_1 (i : S128x16.Idx) (q : dot_S128x1024_S1024x16_S128x16_1_0_0_1_n_n.contr.Idx) :
    (dot_S128x1024_S1024x16_S128x16_1_0_0_1_n_n.rhsIdx i q 1).val = (i 1).val := by
  unfold DotDims.rhsIdx
  rw [dif_neg (show ¬(1 : Fin S1024x16.rank) ∈ dot_S128x1024_S1024x16_S128x16_1_0_0_1_n_n.rhsBatch by decide), dif_pos (show (1 : Fin S1024x16.rank) ∈ dot_S128x1024_S1024x16_S128x16_1_0_0_1_n_n.rhsNonContracting by decide)]
  rfl

/-- Entry (p, r) of the product of l : [128, 1024] and a : [1024, 16] into zero. -/
theorem prod_xa (l : FVec Ideal S128x1024 .bf16) (a : FVec Ideal S1024x16 .bf16) (p : Fin 128) (r : Fin 16) :
    matmul dot_S128x1024_S1024x16_S128x16_1_0_0_1_n_n none l a (constant (F := Ideal) S128x16 .f32 0x00000000#32) (ix2 p r)
      = ∑ q : Fin 1024, l (ix2 p q) * a (ix2 q r) := by
  simp only [matmul]
  rw [Ideal.matmul_constant_zero_apply, ← Equiv.sum_comp (contrEquiv1 dot_S128x1024_S1024x16_S128x16_1_0_0_1_n_n 1024 rfl rfl).symm]
  refine Finset.sum_congr rfl fun k _ => ?_
  have hk := contrEquiv1_symm_val dot_S128x1024_S1024x16_S128x16_1_0_0_1_n_n 1024 rfl rfl k
  have el : dot_S128x1024_S1024x16_S128x16_1_0_0_1_n_n.lhsIdx (ix2 p r) ((contrEquiv1 dot_S128x1024_S1024x16_S128x16_1_0_0_1_n_n 1024 rfl rfl).symm k) = ix2 p k := funext fun a => Fin.ext (by
    match a with
    | ⟨0, _⟩ => exact lhs_xa_0 _ _
    | ⟨1, _⟩ => exact (lhs_xa_1 _ _).trans hk)
  have er : dot_S128x1024_S1024x16_S128x16_1_0_0_1_n_n.rhsIdx (ix2 p r) ((contrEquiv1 dot_S128x1024_S1024x16_S128x16_1_0_0_1_n_n 1024 rfl rfl).symm k) = ix2 k r := funext fun a => Fin.ext (by
    match a with
    | ⟨0, _⟩ => exact (rhs_xa_0 _ _).trans hk
    | ⟨1, _⟩ => exact rhs_xa_1 _ _)
  rw [el, er]

/-! ## The low-rank total against the transposed B block: contraction over the 16 rank indices -/

theorem lhs_lb_0 (i : S128x2048.Idx) (q : dot_S128x16_S16x2048_S128x2048_1_0_0_1_n_n.contr.Idx) :
    (dot_S128x16_S16x2048_S128x2048_1_0_0_1_n_n.lhsIdx i q 0).val = (i 0).val := by
  unfold DotDims.lhsIdx
  rw [dif_neg (show ¬(0 : Fin S128x16.rank) ∈ dot_S128x16_S16x2048_S128x2048_1_0_0_1_n_n.lhsBatch by decide), dif_pos (show (0 : Fin S128x16.rank) ∈ dot_S128x16_S16x2048_S128x2048_1_0_0_1_n_n.lhsNonContracting by decide)]
  rfl
theorem lhs_lb_1 (i : S128x2048.Idx) (q : dot_S128x16_S16x2048_S128x2048_1_0_0_1_n_n.contr.Idx) :
    (dot_S128x16_S16x2048_S128x2048_1_0_0_1_n_n.lhsIdx i q 1).val = (q ⟨0, by decide⟩).val :=
  dot_S128x16_S16x2048_S128x2048_1_0_0_1_n_n.lhsIdx_val_of_single rfl i q
theorem rhs_lb_0 (i : S128x2048.Idx) (q : dot_S128x16_S16x2048_S128x2048_1_0_0_1_n_n.contr.Idx) :
    (dot_S128x16_S16x2048_S128x2048_1_0_0_1_n_n.rhsIdx i q 0).val = (q ⟨0, by decide⟩).val :=
  dot_S128x16_S16x2048_S128x2048_1_0_0_1_n_n.rhsIdx_val_of_single rfl i q
theorem rhs_lb_1 (i : S128x2048.Idx) (q : dot_S128x16_S16x2048_S128x2048_1_0_0_1_n_n.contr.Idx) :
    (dot_S128x16_S16x2048_S128x2048_1_0_0_1_n_n.rhsIdx i q 1).val = (i 1).val := by
  unfold DotDims.rhsIdx
  rw [dif_neg (show ¬(1 : Fin S16x2048.rank) ∈ dot_S128x16_S16x2048_S128x2048_1_0_0_1_n_n.rhsBatch by decide), dif_pos (show (1 : Fin S16x2048.rank) ∈ dot_S128x16_S16x2048_S128x2048_1_0_0_1_n_n.rhsNonContracting by decide)]
  rfl

/-- Entry (p, j) of the product of l : [128, 16] and b : [16, 2048] into zero. -/
theorem prod_lb (l : FVec Ideal S128x16 .bf16) (b : FVec Ideal S16x2048 .bf16) (p : Fin 128) (j : Fin 2048) :
    matmul dot_S128x16_S16x2048_S128x2048_1_0_0_1_n_n none l b (constant (F := Ideal) S128x2048 .f32 0x00000000#32) (ix2 p j)
      = ∑ r : Fin 16, l (ix2 p r) * b (ix2 r j) := by
  simp only [matmul]
  rw [Ideal.matmul_constant_zero_apply, ← Equiv.sum_comp (contrEquiv1 dot_S128x16_S16x2048_S128x2048_1_0_0_1_n_n 16 rfl rfl).symm]
  refine Finset.sum_congr rfl fun k _ => ?_
  have hk := contrEquiv1_symm_val dot_S128x16_S16x2048_S128x2048_1_0_0_1_n_n 16 rfl rfl k
  have el : dot_S128x16_S16x2048_S128x2048_1_0_0_1_n_n.lhsIdx (ix2 p j) ((contrEquiv1 dot_S128x16_S16x2048_S128x2048_1_0_0_1_n_n 16 rfl rfl).symm k) = ix2 p k := funext fun a => Fin.ext (by
    match a with
    | ⟨0, _⟩ => exact lhs_lb_0 _ _
    | ⟨1, _⟩ => exact (lhs_lb_1 _ _).trans hk)
  have er : dot_S128x16_S16x2048_S128x2048_1_0_0_1_n_n.rhsIdx (ix2 p j) ((contrEquiv1 dot_S128x16_S16x2048_S128x2048_1_0_0_1_n_n 16 rfl rfl).symm k) = ix2 k j := funext fun a => Fin.ext (by
    match a with
    | ⟨0, _⟩ => exact (rhs_lb_0 _ _).trans hk
    | ⟨1, _⟩ => exact rhs_lb_1 _ _)
  rw [el, er]

/-! ## A transposed matrix at (q, j) is the matrix at (j, q) -/

theorem transpose_wblk (w : FVec Ideal S2048x1024 .bf16) (q : Fin 1024) (j : Fin 2048) :
    transpose S1024x2048 [1, 0] w Facts₀.transposes_S2048x1024_p1_0_S1024x2048 (ix2 q j) = w (ix2 j q) :=
  transpose_apply _ w _ (ix2 q j) (ix2 j q) (fun b => match b with | ⟨0, _⟩ => rfl | ⟨1, _⟩ => rfl)

theorem transpose_ablk (a : FVec Ideal S16x1024 .bf16) (q : Fin 1024) (r : Fin 16) :
    transpose S1024x16 [1, 0] a Facts₀.transposes_S16x1024_p1_0_S1024x16 (ix2 q r) = a (ix2 r q) :=
  transpose_apply _ a _ (ix2 q r) (ix2 r q) (fun b => match b with | ⟨0, _⟩ => rfl | ⟨1, _⟩ => rfl)

theorem transpose_bblk (b : FVec Ideal S2048x16 .bf16) (r : Fin 16) (j : Fin 2048) :
    transpose S16x2048 [1, 0] b Facts₀.transposes_S2048x16_p1_0_S16x2048 (ix2 r j) = b (ix2 j r) :=
  transpose_apply _ b _ (ix2 r j) (ix2 j r) (fun b => match b with | ⟨0, _⟩ => rfl | ⟨1, _⟩ => rfl)

/-! ## The stored values at an index -/

/-- The reset of the base total stores zero. -/
theorem reset_base_apply (i : S128x2048.Idx) : k0_pay1 (F := Ideal) i = 0 := by
  unfold k0_pay1
  rw [shapeCast_self]
  exact Ideal.ofBits_zero_f32

/-- The reset of the low-rank total stores zero. -/
theorem reset_low_apply (i : S128x16.Idx) : k0_pay2 (F := Ideal) i = 0 := by
  unfold k0_pay2
  rw [shapeCast_self]
  exact Ideal.ofBits_zero_f32

/-- The running base total after a point: what it held plus the point's stretch of the inner product. -/
theorem base_apply (xb : FVec Ideal S128x1024 .f32) (wb : FVec Ideal S2048x1024 .f32) (prev : FVec Ideal S128x2048 .f32)
    (p : Fin 128) (j : Fin 2048) :
    k0_pay4 (F := Ideal) xb wb prev (ix2 p j) = prev (ix2 p j) + ∑ q : Fin 1024, xb (ix2 p q) * wb (ix2 j q) := by
  unfold k0_pay4 k0_pay3
  rw [shapeCast_self]
  show prev (ix2 p j) + _ = _
  rw [prod_xw]
  refine congrArg _ (Finset.sum_congr rfl fun q _ => ?_)
  rw [transpose_wblk, shapeCast_self]
  rfl

/-- The running low-rank total after a point. -/
theorem low_apply (xb : FVec Ideal S128x1024 .f32) (ab : FVec Ideal S16x1024 .f32) (prev : FVec Ideal S128x16 .f32)
    (p : Fin 128) (r : Fin 16) :
    k0_pay5 (F := Ideal) xb ab prev (ix2 p r) = prev (ix2 p r) + ∑ q : Fin 1024, xb (ix2 p q) * ab (ix2 r q) := by
  unfold k0_pay5 k0_pay3
  rw [shapeCast_self]
  show prev (ix2 p r) + _ = _
  rw [prod_xa]
  refine congrArg _ (Finset.sum_congr rfl fun q _ => ?_)
  rw [transpose_ablk, shapeCast_self]
  rfl

/-- The output block at the last point of a column block: base plus low-rank product plus bias. -/
theorem out_apply (bb : FVec Ideal S2048x16 .f32) (low : FVec Ideal S128x16 .f32) (base : FVec Ideal S128x2048 .f32)
    (bias : FVec Ideal S1x2048 .f32) (p : Fin 128) (j : Fin 2048) :
    k0_pay6 (F := Ideal) bb low base bias (ix2 p j)
      = (base (ix2 p j) + ∑ r : Fin 16, low (ix2 p r) * bb (ix2 j r)) + bias (ix2 0 j) := by
  unfold k0_pay6
  show (base (ix2 p j) + _) + _ = _
  rw [prod_lb]
  congr 1
  · refine congrArg _ (Finset.sum_congr rfl fun r _ => ?_)
    rw [transpose_bblk]
    rfl
  · rw [shapeCast_self]
    exact broadcastTo_apply bias _ (ix2 p j) (ix2 0 j) (fun a => match a with
      | ⟨0, _⟩ => by show 0 = if (1 : Nat) = 1 then 0 else _; rw [if_pos rfl]
      | ⟨1, _⟩ => by show j.val = if (2048 : Nat) = 1 then 0 else j.val; rw [if_neg (by decide)])

end Cert.KernelIdeal.LoraValue

end
-- ==== Proof.LoraBlocks.lean ====
/-
  The windows' blocks, read at an index.

  Grid point t (of 32, in row-major order of the 4 × 8 grid) has column-block number t / 8 and contraction-stretch
  number t % 8.  At that point
    the x block     is rows 0..127 of the flattened x,            columns 1024·(t % 8) ..,
    the W block     is rows 2048·(t / 8) .. of W,                 columns 1024·(t % 8) ..,
    the bias block  is row 0 of the bias row,                     columns 2048·(t / 8) ..,
    the A block     is rows 0..15 of A,                           columns 1024·(t % 8) ..,
    the B block     is rows 2048·(t / 8) .. of B,                 columns 0..15,
  and the output block is rows 0..127, columns 2048·(t / 8) .. of the result.
  A block's coordinate along an axis is always (block number) × (block extent) + (coordinate inside the block).
-/
import proofs.«100584_j72980084293847_1_alg».proof.Proof.Gen.KernelIdeal.Frame
import proofs.«100584_j72980084293847_1_alg».proof.Proof.LoraSpec
import Idealize.ShloMosaic.Lib.Pipeline.Value
import Idealize.ShloMosaic.Lib.ValueIdx

noncomputable section

namespace Cert.KernelIdeal.LoraValue

open Cert.KernelIdeal Cert.KernelIdeal.Gen Idealize.ShloMosaic Idealize.ShloMosaic.TcCoe Idealize.SL.Sem
open Idealize.ShloMosaic.ValueIdx Cert.LoraLinear

variable (m : (ℓ : Loc nD τ sig) → Buf (Elt Ideal) ℓ)

/-! ## The arrays as the region finds them, at their literal types -/

abbrev xarr (c : Dev nD) : FVec Ideal S128x8192 .f32 := V m c main_v0
abbrev warr (c : Dev nD) : FVec Ideal S8192x8192 .f32 := V m c main_arg1
abbrev biasarr (c : Dev nD) : FVec Ideal S1x8192 .f32 := V m c main_v1
abbrev aarr (c : Dev nD) : FVec Ideal S16x8192 .f32 := V m c main_arg3
abbrev barr (c : Dev nD) : FVec Ideal S8192x16 .f32 := V m c main_arg4

/-! ## The blocks at a point, at their literal types -/

abbrev xblk (c : Dev nD) (t : Fin cfg0.N) : FVec Ideal S128x1024 .f32 := iblk m c 0 t
abbrev wblk (c : Dev nD) (t : Fin cfg0.N) : FVec Ideal S2048x1024 .f32 := iblk m c 1 t
abbrev biasblk (c : Dev nD) (t : Fin cfg0.N) : FVec Ideal S1x2048 .f32 := iblk m c 2 t
abbrev ablk (c : Dev nD) (t : Fin cfg0.N) : FVec Ideal S16x1024 .f32 := iblk m c 3 t
abbrev bblk (c : Dev nD) (t : Fin cfg0.N) : FVec Ideal S2048x16 .f32 := iblk m c 4 t

/-! ## The block numbers, decided once over the grid -/

theorem idx_x : ∀ t : Fin cfg0.N, win0_0.index t 0 = 0 ∧ win0_0.index t 1 = t.val % 8 :=
  (by decide +kernel : ∀ t : Fin grid0.N, win0_0.index t 0 = 0 ∧ win0_0.index t 1 = t.val % 8)
theorem idx_w : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx_bias : ∀ t : Fin cfg0.N, win0_2.index t 0 = 0 ∧ win0_2.index t 1 = t.val / 8 :=
  (by decide +kernel : ∀ t : Fin grid0.N, win0_2.index t 0 = 0 ∧ win0_2.index t 1 = t.val / 8)
theorem idx_a : ∀ t : Fin cfg0.N, win0_3.index t 0 = 0 ∧ win0_3.index t 1 = t.val % 8 :=
  (by decide +kernel : ∀ t : Fin grid0.N, win0_3.index t 0 = 0 ∧ win0_3.index t 1 = t.val % 8)
theorem idx_b : ∀ t : Fin cfg0.N, win0_4.index t 0 = t.val / 8 ∧ win0_4.index t 1 = 0 :=
  (by decide +kernel : ∀ t : Fin grid0.N, win0_4.index t 0 = t.val / 8 ∧ win0_4.index t 1 = 0)
theorem idx_out : ∀ t : Fin cfg0.N, win0_5.index t 0 = 0 ∧ win0_5.index t 1 = t.val / 8 :=
  (by decide +kernel : ∀ t : Fin grid0.N, win0_5.index t 0 = 0 ∧ win0_5.index t 1 = t.val / 8)

theorem point_lt (t : Fin cfg0.N) : t.val < 32 := lt_of_lt_of_eq t.isLt N_0

/-! ## Each block read at an index is its array at the shifted index -/

theorem xblk_apply (c : Dev nD) (t : Fin cfg0.N) (p : Fin 128) (q : Fin 1024) :
    xblk m c t (ix2 p q) = at2 (xarr m c) p.val (1024 * (t.val % 8) + q.val) := by
  have hN := point_lt t
  rw [at2_of_lt _ p.isLt (by omega)]
  show iblk m c 0 t (ix2 p q) = _
  unfold iblk
  rw [View.read_apply]
  refine congrArg (V m c main_v0) (funext fun a => Fin.ext ?_)
  match a with
  | ⟨0, _⟩ => show win0_0.index t 0 * 128 + 1 * p.val = p.val; rw [(idx_x t).1]; omega
  | ⟨1, _⟩ => show win0_0.index t 1 * 1024 + 1 * q.val = 1024 * (t.val % 8) + q.val; rw [(idx_x t).2]; omega

theorem wblk_apply (c : Dev nD) (t : Fin cfg0.N) (j : Fin 2048) (q : Fin 1024) :
    wblk m c t (ix2 j q) = at2 (warr m c) (2048 * (t.val / 8) + j.val) (1024 * (t.val % 8) + q.val) := by
  have hN := point_lt t
  rw [at2_of_lt _ (by omega) (by omega)]
  show iblk m c 1 t (ix2 j q) = _
  unfold iblk
  rw [View.read_apply]
  refine congrArg (V m c main_arg1) (funext fun a => Fin.ext ?_)
  match a with
  | ⟨0, _⟩ => show win0_1.index t 0 * 2048 + 1 * j.val = 2048 * (t.val / 8) + j.val; rw [(idx_w t).1]; omega
  | ⟨1, _⟩ => show win0_1.index t 1 * 1024 + 1 * q.val = 1024 * (t.val % 8) + q.val; rw [(idx_w t).2]; omega

theorem biasblk_apply (c : Dev nD) (t : Fin cfg0.N) (j : Fin 2048) :
    biasblk m c t (ix2 0 j) = at2 (biasarr m c) 0 (2048 * (t.val / 8) + j.val) := by
  have hN := point_lt t
  rw [at2_of_lt _ (by omega) (by omega)]
  show iblk m c 2 t (ix2 0 j) = _
  unfold iblk
  rw [View.read_apply]
  refine congrArg (V m c main_v1) (funext fun a => Fin.ext ?_)
  match a with
  | ⟨0, _⟩ => show win0_2.index t 0 * 1 + 1 * 0 = 0; rw [(idx_bias t).1]
  | ⟨1, _⟩ => show win0_2.index t 1 * 2048 + 1 * j.val = 2048 * (t.val / 8) + j.val; rw [(idx_bias t).2]; omega

theorem ablk_apply (c : Dev nD) (t : Fin cfg0.N) (r : Fin 16) (q : Fin 1024) :
    ablk m c t (ix2 r q) = at2 (aarr m c) r.val (1024 * (t.val % 8) + q.val) := by
  have hN := point_lt t
  rw [at2_of_lt _ r.isLt (by omega)]
  show iblk m c 3 t (ix2 r q) = _
  unfold iblk
  rw [View.read_apply]
  refine congrArg (V m c main_arg3) (funext fun a => Fin.ext ?_)
  match a with
  | ⟨0, _⟩ => show win0_3.index t 0 * 16 + 1 * r.val = r.val; rw [(idx_a t).1]; omega
  | ⟨1, _⟩ => show win0_3.index t 1 * 1024 + 1 * q.val = 1024 * (t.val % 8) + q.val; rw [(idx_a t).2]; omega

theorem bblk_apply (c : Dev nD) (t : Fin cfg0.N) (j : Fin 2048) (r : Fin 16) :
    bblk m c t (ix2 j r) = at2 (barr m c) (2048 * (t.val / 8) + j.val) r.val := by
  have hN := point_lt t
  rw [at2_of_lt _ (by omega) r.isLt]
  show iblk m c 4 t (ix2 j r) = _
  unfold iblk
  rw [View.read_apply]
  refine congrArg (V m c main_arg4) (funext fun a => Fin.ext ?_)
  match a with
  | ⟨0, _⟩ => show win0_4.index t 0 * 2048 + 1 * j.val = 2048 * (t.val / 8) + j.val; rw [(idx_b t).1]; omega
  | ⟨1, _⟩ => show win0_4.index t 1 * 16 + 1 * r.val = r.val; rw [(idx_b t).2]; omega

end Cert.KernelIdeal.LoraValue

end
-- ==== Proof.LoraTotals.lean ====
/-
  The two running totals after every grid point.

  Point t has column-block number t / 8 and stretch number t % 8.  After it
      the base total at (p, j)      is  Σ_{d < 1024·(t % 8 + 1)}  x[p, d] · W[2048·(t / 8) + j, d],
      the low-rank total at (p, r)  is  Σ_{d < 1024·(t % 8 + 1)}  x[p, d] · A[r, d]:
  the inner products taken over the columns seen so far in this column block.  At a first point (t % 8 = 0) the
  totals were reset, so they are zero plus the first stretch; at any other point the point before is in the same
  column block, with one stretch fewer, and this point adds the next stretch.  By induction on t.
-/
import proofs.«100584_j72980084293847_1_alg».proof.Proof.LoraPieces
import proofs.«100584_j72980084293847_1_alg».proof.Proof.LoraPayloads
import proofs.«100584_j72980084293847_1_alg».proof.Proof.LoraBlocks

noncomputable section

namespace Cert.KernelIdeal.LoraValue

open Cert.KernelIdeal Cert.KernelIdeal.Gen Idealize.ShloMosaic Idealize.ShloMosaic.TcCoe Idealize.SL.Sem
open Idealize.ShloMosaic.ValueIdx Cert.LoraLinear

variable (m : (ℓ : Loc nD τ sig) → Buf (Elt Ideal) ℓ)

/-! ## What a point leaves in the two totals and in the output block, as the stored values -/

theorem base_at_first (c : Dev nD) (t : Fin cfg0.N) (h0 : t.val % 8 = 0) :
    (outsAt0 m c t.val t.isLt).2.1 = k0_pay4 (F := Ideal) (xblk m c t) (wblk m c t) (k0_pay1 (F := Ideal)) := by
  have h1 : ¬t.val % 8 = 7 := by omega
  rw [outsAt0_A m c t h0 h1]
  dsimp only
  exact base_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem low_at_first (c : Dev nD) (t : Fin cfg0.N) (h0 : t.val % 8 = 0) :
    (outsAt0 m c t.val t.isLt).2.2 = k0_pay5 (F := Ideal) (xblk m c t) (ablk m c t) (k0_pay2 (F := Ideal)) := by
  have h1 : ¬t.val % 8 = 7 := by omega
  rw [outsAt0_A m c t h0 h1]
  dsimp only
  exact low_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem base_at_next (c : Dev nD) (t : Fin cfg0.N) (h0 : ¬t.val % 8 = 0) :
    (outsAt0 m c t.val t.isLt).2.1 = k0_pay4 (F := Ideal) (xblk m c t) (wblk m c t) (outsAt0 m c (t.val - 1) (Nat.lt_of_le_of_lt (Nat.sub_le _ _) t.isLt)).2.1 := by
  by_cases h1 : t.val % 8 = 7
  · rw [outsAt0_C m c t h0 h1]
    dsimp only
    exact base_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact base_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

theorem low_at_next (c : Dev nD) (t : Fin cfg0.N) (h0 : ¬t.val % 8 = 0) :
    (outsAt0 m c t.val t.isLt).2.2 = k0_pay5 (F := Ideal) (xblk m c t) (ablk m c t) (outsAt0 m c (t.val - 1) (Nat.lt_of_le_of_lt (Nat.sub_le _ _) t.isLt)).2.2 := by
  by_cases h1 : t.val % 8 = 7
  · rw [outsAt0_C m c t h0 h1]
    dsimp only
    exact low_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact low_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At a last point the output block is formed from the point's own two totals. -/
theorem out_at_last (c : Dev nD) (t : Fin cfg0.N) (h1 : t.val % 8 = 7) :
    (outsAt0 m c t.val t.isLt).1
      = k0_pay6 (F := Ideal) (bblk m c t) (outsAt0 m c t.val t.isLt).2.2 (outsAt0 m c t.val t.isLt).2.1 (biasblk m c t) := by
  have h0 : ¬t.val % 8 = 0 := by omega
  rw [low_at_next m c t h0, base_at_next m c t h0, outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-! ## The totals as partial inner products -/

/-- The base total's partial inner product: the first n columns of row p of x against row o of W. -/
abbrev basePartial (c : Dev nD) (p o n : ℕ) : EReal :=
  ∑ d ∈ Finset.range n, at2 (xarr m c) p d * at2 (warr m c) o d

/-- The low-rank total's partial inner product: the first n columns of row p of x against row r of A. -/
abbrev lowPartial (c : Dev nD) (p r n : ℕ) : EReal :=
  ∑ d ∈ Finset.range n, at2 (xarr m c) p d * at2 (aarr m c) r d

theorem base_step_first (c : Dev nD) (t : Fin cfg0.N) (h0 : t.val % 8 = 0) (p : Fin 128) (j : Fin 2048) :
    (outsAt0 m c t.val t.isLt).2.1 (ix2 p j)
      = basePartial m c p.val (2048 * (t.val / 8) + j.val) (1024 * (t.val % 8 + 1)) := by
  refine (congrFun (base_at_first m c t h0) (ix2 p j)).trans ?_
  refine (base_apply (xblk m c t) (wblk m c t) (k0_pay1 (F := Ideal)) p j).trans ?_
  rw [reset_base_apply, zero_add, h0]
  show _ = ∑ d ∈ Finset.range (1024 * (0 + 1)), _
  rw [sum_first_stretch (fun d => at2 (xarr m c) p.val d * at2 (warr m c) (2048 * (t.val / 8) + j.val) d) 1024]
  refine Finset.sum_congr rfl fun q _ => ?_
  rw [xblk_apply, wblk_apply, h0]

theorem base_step_next (c : Dev nD) (t : Fin cfg0.N) (h0 : ¬t.val % 8 = 0) (p : Fin 128) (j : Fin 2048)
    (ih : (outsAt0 m c (t.val - 1) (Nat.lt_of_le_of_lt (Nat.sub_le _ _) t.isLt)).2.1 (ix2 p j)
      = basePartial m c p.val (2048 * ((t.val - 1) / 8) + j.val) (1024 * ((t.val - 1) % 8 + 1))) :
    (outsAt0 m c t.val t.isLt).2.1 (ix2 p j)
      = basePartial m c p.val (2048 * (t.val / 8) + j.val) (1024 * (t.val % 8 + 1)) := by
  have hk : (t.val - 1) % 8 + 1 = t.val % 8 := by omega
  have hi : (t.val - 1) / 8 = t.val / 8 := by omega
  rw [hk, hi] at ih
  refine (congrFun (base_at_next m c t h0) (ix2 p j)).trans ?_
  refine (base_apply (xblk m c t) (wblk m c t) _ p j).trans ?_
  rw [ih]
  show _ = ∑ d ∈ Finset.range (1024 * (t.val % 8 + 1)), _
  rw [sum_stretch (fun d => at2 (xarr m c) p.val d * at2 (warr m c) (2048 * (t.val / 8) + j.val) d) 1024 (t.val % 8)]
  refine congrArg _ (Finset.sum_congr rfl fun q _ => ?_)
  rw [xblk_apply, wblk_apply]

theorem low_step_first (c : Dev nD) (t : Fin cfg0.N) (h0 : t.val % 8 = 0) (p : Fin 128) (r : Fin 16) :
    (outsAt0 m c t.val t.isLt).2.2 (ix2 p r) = lowPartial m c p.val r.val (1024 * (t.val % 8 + 1)) := by
  refine (congrFun (low_at_first m c t h0) (ix2 p r)).trans ?_
  refine (low_apply (xblk m c t) (ablk m c t) (k0_pay2 (F := Ideal)) p r).trans ?_
  rw [reset_low_apply, zero_add, h0]
  show _ = ∑ d ∈ Finset.range (1024 * (0 + 1)), _
  rw [sum_first_stretch (fun d => at2 (xarr m c) p.val d * at2 (aarr m c) r.val d) 1024]
  refine Finset.sum_congr rfl fun q _ => ?_
  rw [xblk_apply, ablk_apply, h0]

theorem low_step_next (c : Dev nD) (t : Fin cfg0.N) (h0 : ¬t.val % 8 = 0) (p : Fin 128) (r : Fin 16)
    (ih : (outsAt0 m c (t.val - 1) (Nat.lt_of_le_of_lt (Nat.sub_le _ _) t.isLt)).2.2 (ix2 p r) = lowPartial m c p.val r.val (1024 * ((t.val - 1) % 8 + 1))) :
    (outsAt0 m c t.val t.isLt).2.2 (ix2 p r) = lowPartial m c p.val r.val (1024 * (t.val % 8 + 1)) := by
  have hk : (t.val - 1) % 8 + 1 = t.val % 8 := by omega
  rw [hk] at ih
  refine (congrFun (low_at_next m c t h0) (ix2 p r)).trans ?_
  refine (low_apply (xblk m c t) (ablk m c t) _ p r).trans ?_
  rw [ih]
  show _ = ∑ d ∈ Finset.range (1024 * (t.val % 8 + 1)), _
  rw [sum_stretch (fun d => at2 (xarr m c) p.val d * at2 (aarr m c) r.val d) 1024 (t.val % 8)]
  refine congrArg _ (Finset.sum_congr rfl fun q _ => ?_)
  rw [xblk_apply, ablk_apply]

/-- The base total after point n. -/
theorem base_total (c : Dev nD) (p : Fin 128) (j : Fin 2048) : ∀ (n : ℕ) (h : n < cfg0.N),
    (outsAt0 m c n h).2.1 (ix2 p j) = basePartial m c p.val (2048 * (n / 8) + j.val) (1024 * (n % 8 + 1))
  | 0, h => base_step_first m c ⟨0, h⟩ rfl p j
  | n + 1, h => by
    by_cases h0 : (n + 1) % 8 = 0
    · exact base_step_first m c ⟨n + 1, h⟩ h0 p j
    · exact base_step_next m c ⟨n + 1, h⟩ h0 p j (base_total c p j n (Nat.lt_of_succ_lt h))

/-- The low-rank total after point n. -/
theorem low_total (c : Dev nD) (p : Fin 128) (r : Fin 16) : ∀ (n : ℕ) (h : n < cfg0.N),
    (outsAt0 m c n h).2.2 (ix2 p r) = lowPartial m c p.val r.val (1024 * (n % 8 + 1))
  | 0, h => low_step_first m c ⟨0, h⟩ rfl p r
  | n + 1, h => by
    by_cases h0 : (n + 1) % 8 = 0
    · exact low_step_first m c ⟨n + 1, h⟩ h0 p r
    · exact low_step_next m c ⟨n + 1, h⟩ h0 p r (low_total c p r n (Nat.lt_of_succ_lt h))

end Cert.KernelIdeal.LoraValue

end
-- ==== Proof.LoraResult.lean ====
/-
  The kernel's result.

  The output window is written back only at the last point of each column block (t % 8 = 7).  There both totals
  are complete inner products over all 8192 columns, so the block written back is the flattened value read
  through the block: rows 0..127, columns 2048·(t / 8) .. .  The four column blocks cover the flattened result,
  so after the run it holds the flattened value of the arrays the region found: the flattened x, W, the bias as
  a row, A and B.  The one host operation after the region unflattens it, and the two before the region made the
  flattened x and the bias row from the arguments, so the result is the value of the arguments.
-/
import proofs.«100584_j72980084293847_1_alg».proof.Proof.LoraTotals
import Idealize.ShloMosaic.Lib.StableHlo.Run

noncomputable section

namespace Cert.KernelIdeal.LoraValue

open Cert.KernelIdeal Cert.KernelIdeal.Gen Idealize.ShloMosaic Idealize.ShloMosaic.TcCoe Idealize.SL.Sem
open Idealize.ShloMosaic.ValueIdx Cert.LoraLinear
open Idealize.ShloMosaic.Pipeline (Dat)

variable (m : (ℓ : Loc nD τ sig) → Buf (Elt Ideal) ℓ) (ρ : Dev nD → PrngReg)

/-- The flattened value of the arrays as the region finds them. -/
abbrev flatValue (c : Dev nD) : FVec Ideal S128x8192 .f32 :=
  flat (xarr m c) (warr m c) (biasarr m c) (aarr m c) (barr m c)

/-- The block stored at the last point of column block t / 8, at (p, j), is the flattened value at (p, o) for
    o = 2048·(t / 8) + j. -/
theorem out_block (c : Dev nD) (t : Fin cfg0.N) (h1 : t.val % 8 = 7) (p : Fin 128) (j : Fin 2048) (o : Fin 8192)
    (ho : o.val = 2048 * (t.val / 8) + j.val) :
    (outsAt0 m c t.val t.isLt).1 (ix2 p j) = flatValue m c (ix2 p o) := by
  have e8 : 1024 * (t.val % 8 + 1) = 8192 := by omega
  refine (congrFun (out_at_last m c t h1) (ix2 p j)).trans ?_
  refine (out_apply (bblk m c t) _ _ (biasblk m c t) p j).trans ?_
  rw [base_total m c p j t.val t.isLt, biasblk_apply, e8, ← ho]
  show (basePartial m c p.val o.val 8192 + _) + _
    = ((∑ d : Fin 8192, xarr m c (ix2 p d) * warr m c (ix2 o d))
        + ∑ r : Fin 16, (∑ d : Fin 8192, xarr m c (ix2 p d) * aarr m c (ix2 r d)) * barr m c (ix2 o r))
      + biasarr m c (ix2 0 o)
  rw [show basePartial m c p.val o.val 8192 = _ from sum_all (xarr m c) (warr m c) p o]
  congr 1
  · refine congrArg _ (Finset.sum_congr rfl fun r _ => ?_)
    rw [low_total m c p r t.val t.isLt, e8, bblk_apply, ← ho, at2_fin]
    rw [show lowPartial m c p.val r.val 8192 = _ from sum_all (xarr m c) (aarr m c) p r]
  · exact at2_fin (biasarr m c) 0 o

/-- What a write-back writes is the flattened value read through the point's block. -/
theorem flushed_eq (c : Dev nD) (t : Fin cfg0.N) (hf : (cfg0.win 5).flush t = true) :
    (dats m 0 c).flushed 5 t = ((cfg0.win 5).blk t).view.read (Elt Ideal) (flatValue m c) := by
  have h1 : t.val % 8 = 7 := (flush0_5 t).mp hf
  have hN := point_lt t
  show (cfg0.win 5).cut (grid0.coords t) ((dats m 0 c).after 5 t) = _
  rw [after0_5]
  funext y
  obtain ⟨p, j, rfl⟩ : ∃ (p : Fin 128) (j : Fin 2048), y = ix2 p j := ⟨y 0, y 1, eq_ix2 y⟩
  show (outsAt0 m c t.val t.isLt).1 (ix2 p j) = flatValue m c (((cfg0.win 5).blk t).view.emb (ix2 p j))
  rw [out_block m c t h1 p j ⟨2048 * (t.val / 8) + j.val, by have := j.isLt; omega⟩ rfl]
  refine congrArg (flatValue m c) (funext fun a => Fin.ext ?_)
  match a with
  | ⟨0, _⟩ => show p.val = win0_5.index t 0 * 128 + 1 * p.val; rw [(idx_out t).1]; omega
  | ⟨1, _⟩ => show 2048 * (t.val / 8) + j.val = win0_5.index t 1 * 2048 + 1 * j.val; rw [(idx_out t).2]; omega

/-- An index of the flattened result is in point t's block iff each coordinate is in the block's range. -/
theorem mem_out_blk (t : Fin cfg0.N) (i : S128x8192.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v2).slice (win0_5.rect t)).set ↔ _
  rw [View.set_slice_whole, Rect.mem_set_unit]
  exact Iff.rfl

/-- Every index of the flattened result lies in the block of the last point of its column block. -/
theorem covered (i : S128x8192.Idx) :
    ∃ t : Fin cfg0.N, (cfg0.win 5).flush t = true ∧ i ∈ ((cfg0.win 5).blk t).view.set := by
  have hi0 : (i 0).val < 128 := (i 0).isLt
  have hi1 : (i 1).val < 8192 := (i 1).isLt
  have hlt : 8 * ((i 1).val / 2048) + 7 < cfg0.N := by rw [show cfg0.N = 32 from N_0]; omega
  refine ⟨⟨8 * ((i 1).val / 2048) + 7, hlt⟩, (flush0_5 _).mpr (by show (8 * ((i 1).val / 2048) + 7) % 8 = 7; omega), ?_⟩
  rw [mem_out_blk]
  intro a
  match a with
  | ⟨0, _⟩ =>
    show win0_5.index ⟨8 * ((i 1).val / 2048) + 7, hlt⟩ 0 * 128 ≤ (i 0).val ∧ (i 0).val < win0_5.index ⟨8 * ((i 1).val / 2048) + 7, hlt⟩ 0 * 128 + 128
    rw [(idx_out _).1]; omega
  | ⟨1, _⟩ =>
    show win0_5.index ⟨8 * ((i 1).val / 2048) + 7, hlt⟩ 1 * 2048 ≤ (i 1).val ∧ (i 1).val < win0_5.index ⟨8 * ((i 1).val / 2048) + 7, hlt⟩ 1 * 2048 + 2048
    rw [(idx_out _).2]
    show (8 * ((i 1).val / 2048) + 7) / 8 * 2048 ≤ (i 1).val ∧ (i 1).val < (8 * ((i 1).val / 2048) + 7) / 8 * 2048 + 2048
    omega

/-- After the region the flattened result holds the flattened value. -/
theorem final_out (c : Dev nD) : (dats m 0 c).arrAt 5 cfg0.N = flatValue m c :=
  (dats m 0 c).arrAt_eq_of_cover 5 (flatValue m c) (fun t hf => flushed_eq m c t hf) covered

/-! ## The host operations around the region -/

/-- The region finds the flattened x: the reshape of the first argument. -/
theorem xarr_eq (c : Dev nD) :
    xarr m c = shapeCast S128x8192 (m ((c.tc : Thread nD τ).loc main_arg0)) Facts₀.shapeCasts_S8x16x8192_S128x8192 := by
  show StableHlo.after hostOps0 (fun b => m (c, b)) (Proc.devRef .tc main_v0) = _
  after_results
  rfl

/-- The region finds the bias as a row: the reshape of the third argument. -/
theorem biasarr_eq (c : Dev nD) :
    biasarr m c = shapeCast S1x8192 (m ((c.tc : Thread nD τ).loc main_arg2)) Facts₀.shapeCasts_S8192_S1x8192 := by
  show StableHlo.after hostOps0 (fun b => m (c, b)) (Proc.devRef .tc main_v1) = _
  after_results
  rfl

/-- The value of the argument arrays. -/
abbrev result (c : Dev nD) : Buf (Elt Ideal) ((c.tc : Thread nD τ).loc main_v3) :=
  value (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What the host operation after the region leaves in the result: the flattened value, unflattened. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
        = flatValue m c from (Pipeline.withArrays_arr spec0 launch0.win.arr_inj c _ _ 5).trans (final_out m c)]
  unfold flatValue
  rw [xarr_eq, biasarr_eq]
  show shapeCast S8x16x8192 (flat _ (V m c main_arg1) _ (V m c main_arg3) (V m c main_arg4)) _ = _
  rw [V_main_arg1, V_main_arg3, V_main_arg4]
  exact unflatten_flat _ _ _ _ _ _ _ _

/-- Every weakly fair execution of the kernel's program terminates with the result at the value of the
    arguments and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).1 3).trans (((dats m 0 c).arrAt_in 3 rfl _).trans ((A_eq m c 3).trans (V_main_arg3 m c))),
        ((h c).1 4).trans (((dats m 0 c).arrAt_in 4 rfl _).trans ((A_eq m c 4).trans (V_main_arg4 m c)))⟩)
    (run_main m ρ)

end Cert.KernelIdeal.LoraValue

end
-- ==== Proof.LoraReference.lean ====
/-
  The reference computes the value.

  Read one operation at a time, the reference's result at (s, t, o) is
      ( Σ_d x[s,t,d] · W[o,d]  +  b[o] )  +  Σ_r ( Σ_d x[s,t,d] · A[r,d] ) · B[o,r],
  the bias reaching (s, t, o) through two broadcasts.  That is the value with its last two terms exchanged:
  (u + β) + v = (u + v) + β in any commutative monoid.
-/
import proofs.«100584_j72980084293847_1_alg».proof.Proof.Gen.ReferenceIdeal.Read
import proofs.«100584_j72980084293847_1_alg».proof.Proof.LoraSpec

noncomputable section

namespace Cert.ReferenceIdeal.LoraValue

open Cert.ReferenceIdeal Cert.ReferenceIdeal.Read Idealize.ShloMosaic Idealize.ShloMosaic.ValueIdx Cert.LoraLinear

theorem lidx0 (i : S8x16x8192.Idx) (k : Fin 8192) : lidx_main_v0 i k = ix3 (i 0) (i 1) k :=
  funext fun a => match a with | ⟨0, _⟩ => rfl | ⟨1, _⟩ => rfl | ⟨2, _⟩ => rfl
theorem ridx0 (i : S8x16x8192.Idx) (k : Fin 8192) : ridx_main_v0 i k = ix2 (i 2) k :=
  funext fun a => match a with | ⟨0, _⟩ => rfl | ⟨1, _⟩ => rfl
theorem bidx (i : S8x16x8192.Idx) : idx_main_v1 (idx_main_v2 i) = ix1 (i 2) :=
  funext fun a => match a with | ⟨0, _⟩ => rfl
theorem lidx45 (i : S8x16x8192.Idx) (r : Fin 16) (k : Fin 8192) : lidx_main_v4 (lidx_main_v5 i r) k = ix3 (i 0) (i 1) k :=
  funext fun a => match a with | ⟨0, _⟩ => rfl | ⟨1, _⟩ => rfl | ⟨2, _⟩ => rfl
theorem ridx45 (i : S8x16x8192.Idx) (r : Fin 16) (k : Fin 8192) : ridx_main_v4 (lidx_main_v5 i r) k = ix2 r k :=
  funext fun a => match a with | ⟨0, _⟩ => rfl | ⟨1, _⟩ => rfl
theorem ridx5 (i : S8x16x8192.Idx) (r : Fin 16) : ridx_main_v5 i r = ix2 (i 2) r :=
  funext fun a => match a with | ⟨0, _⟩ => rfl | ⟨1, _⟩ => rfl

/-- The reference's last stage is the value, index by index. -/
theorem reference_eq (x : FVec Ideal S8x16x8192 .f32) (W : FVec Ideal S8192x8192 .f32) (b : FVec Ideal S8192 .f32)
    (A : FVec Ideal S16x8192 .f32) (B : FVec Ideal S8192x16 .f32) :
    val_main_v6 (F := Ideal) x W b A B = value x W b A B := by
  funext i
  rw [val_main_v6_apply, val_main_v3_apply, val_main_v0_apply, val_main_v2_apply, val_main_v1_apply, val_main_v5_apply]
  simp only [val_main_v4_apply, lidx0, ridx0, bidx, lidx45, ridx45, ridx5]
  show (_ + _) + _ = _
  unfold value
  exact add_right_comm _ _ _

end Cert.ReferenceIdeal.LoraValue

end
-- ==== Proof.lean ====
/-
  A linear layer with a low-rank correction: over x : [8, 16, 8192], W : [8192, 8192], b : [8192], A : [16, 8192],
  B : [8192, 16], the result at (s, t, o) is

      ( Σ_d x[s,t,d] · W[o,d]  +  Σ_r ( Σ_d x[s,t,d] · A[r,d] ) · B[o,r] )  +  b[o].

  The kernel flattens the rows of x to p = 16 s + t and runs a 4 × 8 grid: four blocks of 2048 output columns,
  and for each, eight stretches of 1024 columns of the contraction.  It keeps two running totals between the
  points of a column block: the base inner products x·Wᵀ and the low-rank inner products x·Aᵀ, reset at the
  first stretch and grown by one stretch per point; at the eighth stretch both are complete, and the output block
  is  (base + low-rank · Bᵀ) + bias.  Its operands pass through a shorter float format on the way into each
  product, which over the extended reals changes nothing.

  The reference takes each inner product as one sum and adds the bias before the low-rank term.

  The two agree by regrouping the sum over d into its eight stretches, 0 + u = u for the reset, and
  (u + β) + v = (u + v) + β: associativity and commutativity of + on the extended reals, nothing else, so the
  finiteness of the inputs is never used.

    LoraSpec       the value, the regrouping of a sum into stretches, the flattening of the rows
    LoraPayloads   the body's three block products and five stored values at an index
    LoraPieces     what each of the body's three ways of running leaves in the totals and the output block
    LoraBlocks     each window's block at a point, read at an index of its array
    LoraTotals     the two running totals after every point, by induction on the point
    LoraResult     the block written back, the four write-backs covering the result, the host reshapes, the run
    LoraReference  the reference's result is the value

  The three programs run to completion with their arguments unchanged: for the two kernel programs that is the
  launch-and-body argument over all 32 points, for the reference its seven host operations in order.  The kernel's
  idealization rewrote no operation, so there is nothing to preserve.
-/
import proofs.«100584_j72980084293847_1_alg».proof.Defs
import proofs.«100584_j72980084293847_1_alg».proof.Proof.Gen.Kernel
import proofs.«100584_j72980084293847_1_alg».proof.Proof.Gen.Kernel.Skeleton
import proofs.«100584_j72980084293847_1_alg».proof.Proof.Gen.Kernel.Launch
import proofs.«100584_j72980084293847_1_alg».proof.Proof.Gen.Kernel.Points
import proofs.«100584_j72980084293847_1_alg».proof.Proof.Gen.Kernel.Frame
import proofs.«100584_j72980084293847_1_alg».proof.Proof.Gen.KernelIdeal
import proofs.«100584_j72980084293847_1_alg».proof.Proof.Gen.KernelIdeal.Skeleton
import proofs.«100584_j72980084293847_1_alg».proof.Proof.Gen.KernelIdeal.Launch
import proofs.«100584_j72980084293847_1_alg».proof.Proof.Gen.KernelIdeal.Points
import proofs.«100584_j72980084293847_1_alg».proof.Proof.Gen.KernelIdeal.Frame
import proofs.«100584_j72980084293847_1_alg».proof.Proof.Gen.ReferenceIdeal
import proofs.«100584_j72980084293847_1_alg».proof.Proof.Gen.ReferenceIdeal.Run
import proofs.«100584_j72980084293847_1_alg».proof.Proof.Gen.ReferenceIdeal.Read
import proofs.«100584_j72980084293847_1_alg».proof.Proof.Gen.Pre_finite_inputs
import proofs.«100584_j72980084293847_1_alg».proof.Proof.LoraSpec
import proofs.«100584_j72980084293847_1_alg».proof.Proof.LoraResult
import proofs.«100584_j72980084293847_1_alg».proof.Proof.LoraReference
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end at the value of the arguments. -/
theorem algebraic : Cert.algebraic_KernelIdeal_ReferenceIdeal := by
  intro m ρ m' ρ' _ hagree
  refine ⟨fun c => Cert.KernelIdeal.LoraValue.result m c, Cert.KernelIdeal.LoraValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.LoraValue.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
